-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S16384x4096 : Shape := ⟨2, ![16384, 4096]⟩
abbrev S256x4096 : Shape := ⟨2, ![256, 4096]⟩

abbrev nBuf : Space → Nat
  | .hbm => 4
  | .vmem => 4
  | .smem => 0
  | _ => 0

abbrev bufTy : (tb : Table) → Fin (tcTables nBuf tb) → BufTy
  | .hbm, ⟨0, _⟩ => ⟨S4x4096x4096, .f32⟩
  | .hbm, ⟨1, _⟩ => ⟨S16384x4096, .f32⟩
  | .hbm, ⟨2, _⟩ => ⟨S16384x4096, .f32⟩
  | .hbm, ⟨3, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x4096x4096_S16384x4096 : S4x4096x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4x4096x4096, .f32⟩
  | .hbm, ⟨3, _⟩ => ⟨S4x4096x4096, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .i1⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .i1⟩
  | .hbm, ⟨27, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)

variable [Facts₀]

class Facts : Prop extends Facts₀ where

variable [Facts]
-- ==== Proof.Activation.lean ====
/-
  The piecewise activation both programs compute, on ONE extended real, and the fact about re-laying an array that
  the kernel side needs.

  On a number `x` both programs evaluate, in this order,
      inner = s · (x + ((c · x) · x) · x)            (s, c two f32 literals)
      mid   = (½ · x) · (1 + tanh inner)
      r     = if x ≤ -3 then 0 else mid
      out   = if x ≥ 3 then x else r
  with the SAME literals (the same words on both sides, so none is ever evaluated) and the same association of
  every product and sum. So no algebraic law is needed at all, and nothing about finiteness: the two programs are one
  function, element by element. The kernel only walks the array differently: it views the [4, 4096, 4096] array as
  [16384, 4096] (row-major), maps `act` over it block of 256 rows by block, and views the result as
  [4, 4096, 4096] again. A pointwise map commutes with a row-major re-lay, and the re-lay there and back is the
  identity (`relay_map`).
-/
import Idealize.ShloMosaic.PureOps.Ideal
import Idealize.ShloMosaic.Lib.Pipeline.Value

noncomputable section

namespace Cert.Gelu

open Idealize.ShloMosaic

/-- The activation on one extended real: the tanh form of GELU between -3 and 3, `0` at and below -3, the identity at and
    above 3. The comparisons and the selection are the machine's own (`Ideal.cmp`, `Scalar.select`), the literals the
    printed words. -/
def act (x : EReal) : EReal :=
  Scalar.select (Ideal.cmp .oge x (Ideal.ofBits .f32 0x40400000#32)) x
    (Scalar.select (Ideal.cmp .ole x (Ideal.ofBits .f32 0xC0400000#32)) (Ideal.ofBits .f32 0x00000000#32)
      ((Ideal.ofBits .f32 0x3F000000#32 * x)
        * (Ideal.ofBits .f32 0x3F800000#32
            + Ideal.tanh (Ideal.ofBits .f32 0x3F4C422A#32
                * (x + ((Ideal.ofBits .f32 0x3D372713#32 * x) * x) * x)))))

/-- A pointwise map between two row-major re-lays of an array (there with `h`, back with `h'`) is the pointwise map of
    the array itself. -/
theorem relay_map {s t : Shape} {α β : Type} (f : α → β) (x : s.Idx → α) (h : s.ShapeCasts t) (h' : t.ShapeCasts s) :
    shapeCast s (fun j => f (shapeCast t x h j)) h' = fun i => f (x i) := by
  have e : (fun j => f (shapeCast t x h j)) = shapeCast t (fun i => f (x i)) h := rfl
  rw [e, shapeCast_shapeCast]

end Cert.Gelu

end
-- ==== Proof.RefSide.lean ====
/-
  The reference, read at an index: its 27 host operations compose to the activation `Cert.Gelu.act` applied element by
  element to the argument array. Every operation of the reference is pointwise (a broadcast scalar literal, a product, a
  sum, tanh, a comparison, a selection), so reading the last stage at an index `i` and following the stages back to
  the argument reads every operand at the same `i`; what is left is `act (x i)` literally. The host's tanh and the
  kernel's are one function on the extended reals.
-/
import proofs.«168658_j9646496546830_1_alg».proof.Proof.Gen.ReferenceIdeal.Read
import proofs.«168658_j9646496546830_1_alg».proof.Proof.Activation

noncomputable section

namespace Cert.Gelu.Ref

open Idealize.ShloMosaic Cert.ReferenceIdeal Cert.ReferenceIdeal.Read

/-- The reference's last stage is the activation of the argument, element by element. -/
theorem stage_eq (x : (⟨S4x4096x4096, .f32⟩ : BufTy).Contents (Elt Ideal)) :
    val_main_v19 (F := Ideal) x = fun i => act (x i) := by
  funext i
  rw [val_main_v19_apply, val_main_v18_apply, val_main_v17_apply, val_main_cst_5_apply,
    val_main_v16_apply, val_main_v14_apply, val_main_v13_apply, val_main_cst_3_apply,
    val_main_v15_apply, val_main_cst_4_apply,
    val_main_v12_apply, val_main_v8_apply, val_main_v7_apply, val_main_cst_1_apply,
    val_main_v11_apply, val_main_v10_apply, val_main_cst_2_apply,
    val_main_v9_apply, val_main_v6_apply, val_main_v5_apply, val_main_cst_0_apply,
    val_main_v4_apply, val_main_v3_apply, val_main_v2_apply, val_main_v1_apply, val_main_v0_apply, val_main_cst_apply]
  rfl

end Cert.Gelu.Ref

end
-- ==== Proof.KernelBlocks.lean ====
/-
  The pallas_call, read as a value: after the region the [16384, 4096] output array holds the activation
  `Cert.Gelu.act` of the [16384, 4096] input array, element by element.

  The grid has 64 points. At point `t` the body loads rows 256·t … 256·t + 255 of the input (all 4096 columns) as one
  block, computes one pointwise value of it and stores that as the whole output block, which the pipeline writes back to
  the same rows of the output array. So:
    * the stored value at a block index `j` is `act` of the loaded block at `j` (`stored_eq`: the body's only
      non-arithmetic operation is a re-lay of the block to its own shape);
    * input and output blocks of a point sit at the same rows (`same_rows`, decided over the 64 points), so what point
      `t` writes back is block `t` of the ONE array `fun i => act (input i)` (`written_back`);
    * row `r` lies in the block of point `r / 256`, so the 64 blocks cover the array (`rows_covered`), and the array
      after the run is that function (`region_result`).
-/
import proofs.«168658_j9646496546830_1_alg».proof.Proof.Gen.KernelIdeal.Frame
import proofs.«168658_j9646496546830_1_alg».proof.Proof.Activation
import Idealize.ShloMosaic.Lib.Pipeline.Value

set_option maxRecDepth 16384

noncomputable section

namespace Cert.Gelu.Blocks

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The body loads and stores at row 0, column 0 of its blocks. -/
theorem origin : (![0, 0] : Fin 2 → Nat) = fun _ => 0 := funext fun a => by fin_cases a <;> rfl

/-- What the body stores, at a block index, is the activation of what it loaded there. -/
theorem stored_eq (v : Vec Ideal S256x4096 .f32) : k0_pay1 (F := Ideal) v = fun j => act (v j) := by
  have e : k0_pay1 (F := Ideal) v
      = fun j => act (shapeCast S256x4096 v shapeCasts_S256x4096_S256x4096 j) := rfl
  rw [e, shapeCast_self]

/-- The activation of the [16384, 4096] array the region finds, element by element. -/
abbrev mapped (c : Dev nD) : S16384x4096.Idx → Elt Ideal .f32 := fun i => act (V m c main_v0 i)

/-- At every grid point the input block and the output block are the same block of rows: block row `t ≤ 63`, block
    column 0. -/
theorem same_rows : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every one of the 64 blocks of rows is some point's output block. -/
theorem every_block : ∀ q : Fin 64, ∃ t : Fin cfg0.N, win0_1.index t = ![q.val, 0] :=
  (by decide +kernel : ∀ q : Fin 64, ∃ t : Fin grid0.N, win0_1.index t = ![q.val, 0])

/-- What point `t` writes back is block `t` of the activation of the input array. -/
theorem written_back (c : Dev nD) (t : Fin cfg0.N) :
    (dats m 0 c).flushed 1 t = ((cfg0.win 1).blk t).view.read (Elt Ideal) (mapped m c) := by
  show (cfg0.win 1).cut (grid0.coords t) ((dats m 0 c).after 1 t) = _
  rw [after0_1]
  unfold out0_1
  rw [View.canon_unit_zero origin]
  simp only [View.ld_unit_zero (S := S256x4096) origin]
  rw [stored_eq]
  obtain ⟨e0, e1⟩ := same_rows t
  funext j
  show act (V m c main_v0 (((cfg0.win 0).blk t).view.emb j)) = act (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * (j 1).val = win0_1.index t (1 : Fin 2) * 4096 + 1 * (j 1).val; omega
  rw [h0]

/-- An index of the output array is in point `t`'s block iff each coordinate is in the block's range on its axis. -/
theorem in_block (t : Fin cfg0.N) (i : S16384x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v1).slice (win0_1.rect t)).set ↔ _
  rw [View.set_slice_whole, Rect.mem_set_unit]
  exact Iff.rfl

/-- Row `r` is written back by the point whose block row is `r / 256`. -/
theorem rows_covered (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨t, ht⟩ := every_block ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [in_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- The output array after the region: the activation of the input array, element by element. -/
theorem region_result (c : Dev nD) : (dats m 0 c).arrAt 1 cfg0.N = mapped m c :=
  (dats m 0 c).arrAt_eq_of_cover 1 (mapped m c) (fun t _ => written_back m c t) rows_covered

end Cert.Gelu.Blocks

end
-- ==== Proof.KernelRun.lean ====
/-
  The whole kernel program, read as a value: it ends with its result array at the activation `Cert.Gelu.act` of the
  argument array, element by element, and the argument unchanged.

  @main is three steps. It views the [4, 4096, 4096] argument as [16384, 4096], row-major (`entry_array`: that is the
  array the region finds). The region maps the activation over that array (`Blocks.region_result`). It views the
  region's [16384, 4096] output as [4, 4096, 4096] again (`result_array`). A pointwise map between a re-lay and its
  inverse is the pointwise map of the array itself (`Cert.Gelu.relay_map`), so the result is `fun i => act (x i)`.
-/
import proofs.«168658_j9646496546830_1_alg».proof.Proof.KernelBlocks
import Idealize.ShloMosaic.Lib.StableHlo.Run

set_option maxRecDepth 16384

noncomputable section

namespace Cert.Gelu.Kernel

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The activation of the argument array, element by element: what the program returns. -/
abbrev result (c : Dev nD) : S4x4096x4096.Idx → Elt Ideal .f32 :=
  fun i => act (m ((c : Thread nD τ).loc main_arg0) i)

/-- The array the region finds is the argument viewed as [16384, 4096], row-major. -/
theorem entry_array (c : Dev nD) :
    (V m c main_v0 : S16384x4096.Idx → Elt Ideal .f32)
      = shapeCast S16384x4096 (m ((c : Thread nD τ).loc main_arg0)) shapeCasts_S4x4096x4096_S16384x4096 := by
  show StableHlo.after hostOps0 (fun b => m (c, b)) (Proc.devRef .tc main_v0) = _
  after_results
  rfl

/-- What the line after the region leaves in the result buffer: the region's output viewed as [4, 4096, 4096], which is
    the activation of the argument. -/
theorem result_array (c : Dev nD) :
    Pipeline.afterTail₀ cfgs (dats m) 0 (V0 m) [hostOps1] c main_v2 = result m c := by
  have harr := (Pipeline.withArrays_arr spec0 launch0.win.arr_inj c (V0 m c)
    (fun w => (dats m 0 c).arrAt w cfg0.N) 1).trans (Blocks.region_result m c)
  unfold Pipeline.afterTail₀
  show StableHlo.after hostOps1 _ (Proc.devRef .tc main_v2) = _
  after_results
  show (fun i => shapeCast S4x4096x4096 (Pipeline.withArrays spec0 c (V0 m c) (fun w => (dats m 0 c).arrAt w cfg0.N)
      (Proc.devRef .tc (Pipeline.arrRef spec0 1))) shapeCasts_S16384x4096_S4x4096x4096 i) = _
  rw [harr]
  show shapeCast S4x4096x4096 (fun j => act (V m c main_v0 j)) shapeCasts_S16384x4096_S4x4096x4096 = _
  rw [entry_array]
  exact relay_map act _ _ _

/-- The kernel program's run: every weakly fair execution terminates with the result buffer at the activation of the
    argument, element by element, and the argument as launched. The result buffer and the argument are buffers the region
    passes by, so they end as the line after the region leaves them. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (result_array m c),
     ((h c).2 main_arg0 (Pipeline.mem_restRefs_of main_arg0 (by decide) (by decide))).trans (W_main_arg0 m (dats m) c)⟩)
    (run_main m ρ)

end Cert.Gelu.Kernel

end
-- ==== Proof.lean ====
/-
  The certificate of the piecewise GELU kernel against its jnp reference.

  Both programs apply ONE function to every element of a float32 [4, 4096, 4096] array: the tanh form of GELU,
  (½ · x) · (1 + tanh (s · (x + ((c · x) · x) · x))), cut to 0 at and below -3 and to the identity at and above 3
  (`Cert.Gelu.act`, Proof/Activation.lean), with the same literals and the same order of operations. The reference
  does so in 27 whole-array host operations (Proof/RefSide.lean reads them at an index). The kernel views the array as
  [16384, 4096], streams it through a 64-point grid in blocks of 256 rows, and views the output as [4, 4096, 4096]
  again (Proof/KernelBlocks.lean: the region's output array; Proof/KernelRun.lean: the two views around it). Since the
  two sides are the same expression element by element, no law of the extended reals is used and the precondition
  (finite inputs) is never opened.

  The three frames are the generated ones (the reference's is its generated run with the result dropped); the ideal
  pass rewrote nothing, so `preserves` is `True`.
-/
import proofs.«168658_j9646496546830_1_alg».proof.Defs
import proofs.«168658_j9646496546830_1_alg».proof.Proof.Gen.Kernel
import proofs.«168658_j9646496546830_1_alg».proof.Proof.Gen.Kernel.Skeleton
import proofs.«168658_j9646496546830_1_alg».proof.Proof.Gen.Kernel.Launch
import proofs.«168658_j9646496546830_1_alg».proof.Proof.Gen.Kernel.Points
import proofs.«168658_j9646496546830_1_alg».proof.Proof.Gen.Kernel.Frame
import proofs.«168658_j9646496546830_1_alg».proof.Proof.Gen.KernelIdeal
import proofs.«168658_j9646496546830_1_alg».proof.Proof.Gen.KernelIdeal.Skeleton
import proofs.«168658_j9646496546830_1_alg».proof.Proof.Gen.KernelIdeal.Launch
import proofs.«168658_j9646496546830_1_alg».proof.Proof.Gen.KernelIdeal.Points
import proofs.«168658_j9646496546830_1_alg».proof.Proof.Gen.KernelIdeal.Frame
import proofs.«168658_j9646496546830_1_alg».proof.Proof.Gen.ReferenceIdeal
import proofs.«168658_j9646496546830_1_alg».proof.Proof.Gen.ReferenceIdeal.Run
import proofs.«168658_j9646496546830_1_alg».proof.Proof.Gen.ReferenceIdeal.Read
import proofs.«168658_j9646496546830_1_alg».proof.Proof.Gen.Pre_finite_inputs
import proofs.«168658_j9646496546830_1_alg».proof.Proof.Activation
import proofs.«168658_j9646496546830_1_alg».proof.Proof.RefSide
import proofs.«168658_j9646496546830_1_alg».proof.Proof.KernelBlocks
import proofs.«168658_j9646496546830_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the argument, both idealized programs end with their result at the activation of the
    argument, element by element. -/
theorem algebraic : Cert.algebraic_KernelIdeal_ReferenceIdeal := by
  intro m ρ m' ρ' _ hagree
  refine ⟨fun c => Cert.Gelu.Kernel.result m c, Cert.Gelu.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Gelu.Ref.stage_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
